-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S8 : Shape := ⟨1, ![8]⟩
abbrev S16x64x4096 : Shape := ⟨3, ![16, 64, 4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S16x64x4096 : S_.BroadcastsInDim S16x64x4096 (![] : Fin 0 → Fin S16x64x4096.rank)
  reducesTo_S16x64x4096_S_d0_1_2 : S16x64x4096.ReducesTo [0, 1, 2] S_
  bcast_S_S8 : S_.BroadcastsInDim S8 (![] : Fin 0 → Fin S8.rank)
  reducesTo_S8_S_d0 : S8.ReducesTo [0] S_

variable [Facts]

def fn {F : FTy → Type} [FloatOps F] (main_arg0 : FVec F S8x2048x4096 .f32) (main_arg1 : IVec S8 32) (main_arg2 : FVec F S16x64x4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S16x64x4096 .f32 := Host.absf main_arg2
  let main_cst_0 : FVec F S_ .f32 := constant S_ .f32 0x7F800000#32
  let main_v5 : FVec F S16x64x4096 .f32 := broadcastInDim S16x64x4096 ![] bcast_S_S16x64x4096 main_cst_0
  let main_v6 : IVec S16x64x4096 1 := cmpf .olt main_v4 main_v5
  let main_c_1 : IVec S_ 1 := constantI S_ 1 1#1
  let main_v7 : IVec S_ 1 := (fun x v => Host.reduce IntOp.andi x v reducesTo_S16x64x4096_S_d0_1_2 h_S_) main_v6 main_c_1
  let main_v8 : IVec S_ 1 := andi main_v3 main_v7
  let main_c_2 : IVec S_ 32 := constantI S_ 32 0#32
  let main_v9 : IVec S8 32 := broadcastInDim S8 ![] bcast_S_S8 main_c_2
  let main_v10 : IVec S8 1 := cmpi .sge main_arg1 main_v9
  let main_c_3 : IVec S_ 32 := constantI S_ 32 16#32
  let main_v11 : IVec S8 32 := broadcastInDim S8 ![] bcast_S_S8 main_c_3
  let main_v12 : IVec S8 1 := cmpi .slt main_arg1 main_v11
  let main_v13 : IVec S8 1 := andi main_v10 main_v12
  let main_c_4 : IVec S_ 1 := constantI S_ 1 1#1
  let main_v14 : IVec S_ 1 := (fun x v => Host.reduce IntOp.andi x v reducesTo_S8_S_d0 h_S_) main_v13 main_c_4
  let main_v15 : IVec S_ 1 := andi main_v8 main_v14
  main_v15
-- ==== Kernel.lean ====
abbrev S8x2048x4096 : Shape := ⟨3, ![8, 2048, 4096]⟩
abbrev S8 : Shape := ⟨1, ![8]⟩
abbrev S16x64x4096 : Shape := ⟨3, ![16, 64, 4096]⟩
abbrev S8x2048x64 : Shape := ⟨3, ![8, 2048, 64]⟩
abbrev S1x1024x4096 : Shape := ⟨3, ![1, 1024, 4096]⟩
abbrev S1x64x4096 : Shape := ⟨3, ![1, 64, 4096]⟩
abbrev S1 : Shape := ⟨1, ![1]⟩
abbrev S1x1024x64 : Shape := ⟨3, ![1, 1024, 64]⟩
abbrev S1024x4096 : Shape := ⟨2, ![1024, 4096]⟩
abbrev S64x4096 : Shape := ⟨2, ![64, 4096]⟩
abbrev S1024x64 : Shape := ⟨2, ![1024, 64]⟩

abbrev nBuf : Space → Nat
  | .hbm => 3
  | .vmem => 6
  | .smem => 1
  | _ => 0

abbrev bufTy : (tb : Table) → Fin (tcTables nBuf tb) → BufTy
  | .hbm, ⟨0, _⟩ => ⟨S8x2048x4096, .f32⟩
  | .hbm, ⟨1, _⟩ => ⟨S16x64x4096, .f32⟩
  | .hbm, ⟨2, _⟩ => ⟨S8x2048x64, .f32⟩
  | .local _ .vmem, ⟨0, _⟩ => ⟨S1x1024x4096, .f32⟩
  | .local _ .vmem, ⟨1, _⟩ => ⟨S1x1024x4096, .f32⟩
  | .local _ .vmem, ⟨2, _⟩ => ⟨S1x64x4096, .f32⟩
  | .local _ .vmem, ⟨3, _⟩ => ⟨S1x64x4096, .f32⟩
  | .local _ .vmem, ⟨4, _⟩ => ⟨S1x1024x64, .f32⟩
  | .local _ .vmem, ⟨5, _⟩ => ⟨S1x1024x64, .f32⟩
  | .local _ .smem, ⟨0, _⟩ => ⟨S8, .i32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  numel1_S1 : S1.numel = 1
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  dot_S1024x4096_S64x4096_S1024x64_1_1_0_0_n_n_wf : DotDims.WF S1024x4096 S64x4096 S1024x64 [1] [1] [0] [0] [] []
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x4096.size a ≤ S8x2048x4096.size a
  hwx0_0 : ∀ i : grid0.Coords, EltTy.bits .f32 = 32 ∨ (Rect.block (s := S8x2048x4096) S1x1024x4096.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S8x2048x64.size a
  hwx0_2 : ∀ i : grid0.Coords, EltTy.bits .f32 = 32 ∨ (Rect.block (s := S8x2048x64) S1x1024x64.size (cc0_transform_2 i) (hinb0_2 i)).WholeWords (EltTy.packing .f32)

variable [Facts₀]

def dot_S1024x4096_S64x4096_S1024x64_1_1_0_0_n_n : DotDims S1024x4096 S64x4096 S1024x64 where
  lhsContracting := [1]
  rhsContracting := [1]
  lhsNonContracting := [0]
  rhsNonContracting := [0]
  lhsBatch := []
  rhsBatch := []
  wf := dot_S1024x4096_S64x4096_S1024x64_1_1_0_0_n_n_wf

abbrev spec0_0 : Pipeline.WinSpec sig grid0.rank :=
  Pipeline.WinSpec.ofSpec (Memref.whole main_arg0) S1x1024x4096.size reads0_0 false false 2 stage0_0 sem0_0 nbuf0_0 hstage0_0

abbrev spec0_1 : Pipeline.WinSpec sig grid0.rank :=
  Pipeline.WinSpec.ofSpec (Memref.whole main_arg2) S1x64x4096.size reads0_1 false false 2 stage0_1 sem0_1 nbuf0_1 hstage0_1

abbrev spec0_2 : Pipeline.WinSpec sig grid0.rank :=
  Pipeline.WinSpec.ofSpec (Memref.whole main_v0) S1x1024x64.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x64x4096.size a ≤ S16x64x4096.size a), EltTy.bits .f32 = 32 ∨ (Rect.block (s := S16x64x4096) S1x64x4096.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S8x2048x4096 : Shape := ⟨3, ![8, 2048, 4096]⟩
abbrev S8 : Shape := ⟨1, ![8]⟩
abbrev S16x64x4096 : Shape := ⟨3, ![16, 64, 4096]⟩
abbrev S_ : Shape := ⟨0, ![]⟩
abbrev S8x1 : Shape := ⟨2, ![8, 1]⟩
abbrev S8x64x4096 : Shape := ⟨3, ![8, 64, 4096]⟩
abbrev S8x2048x64 : Shape := ⟨3, ![8, 2048, 64]⟩

abbrev nBuf : Space → Nat
  | .hbm => 13
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S8, .i32⟩
  | .hbm, ⟨2, _⟩ => ⟨S16x64x4096, .f32⟩
  | .hbm, ⟨3, _⟩ => ⟨S_, .i32⟩
  | .hbm, ⟨4, _⟩ => ⟨S8, .i32⟩
  | .hbm, ⟨5, _⟩ => ⟨S8, .i1⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S8, .i32⟩
  | .hbm, ⟨10, _⟩ => ⟨S8x1, .i32⟩
  | .hbm, ⟨11, _⟩ => ⟨S8x64x4096, .f32⟩
  | .hbm, ⟨12, _⟩ => ⟨S8x2048x64, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S8x1_0 : S8.BroadcastsInDim S8x1 (![0] : Fin 1 → Fin S8x1.rank)
  gather_S16x64x4096_S8x1_S8x64x4096_12_0_n_n_0_1_1644096_wf : GatherDims.WF S16x64x4096 S8x1 S8x64x4096 [1, 2] [0] [] [0] [] 1 ![1, 64, 4096]
  dot_S8x2048x4096_S8x64x4096_S8x2048x64_2_2_1_1_0_0_wf : DotDims.WF S8x2048x4096 S8x64x4096 S8x2048x64 [2] [2] [1] [1] [0] [0]

variable [Facts₀]

def gather_S16x64x4096_S8x1_S8x64x4096_12_0_n_n_0_1_1644096 : GatherDims S16x64x4096 S8x1 S8x64x4096 where
  offsetDims := [1, 2]
  collapsedSliceDims := [0]
  operandBatchingDims := []
  startIndicesBatchingDims := []
  startIndexMap := [0]
  indexVectorDim := 1
  sliceSizes := ![1, 64, 4096]
  wf := gather_S16x64x4096_S8x1_S8x64x4096_12_0_n_n_0_1_1644096_wf
def dot_S8x2048x4096_S8x64x4096_S8x2048x64_2_2_1_1_0_0 : DotDims S8x2048x4096 S8x64x4096 S8x2048x64 where
  lhsContracting := [2]
  rhsContracting := [2]
  lhsNonContracting := [1]
  rhsNonContracting := [1]
  lhsBatch := [0]
  rhsBatch := [0]
  wf := dot_S8x2048x4096_S8x64x4096_S8x2048x64_2_2_1_1_0_0_wf

class Facts : Prop extends Facts₀ where

variable [Facts]
-- ==== Proof.IdsInRange.lean ====
/-
  The precondition read back at the adapter ids. The stated domain is: every entry of x and of weight is finite, and every
  adapter id is a signed word with 0 ≤ id < 16. The third conjunct is a conjunction over the eight ids (a reduction by
  "and" from the constant 1), so at each id both comparisons came out 1; a word that is nonnegative when read signed and
  below 16 when read signed is below 16 when read unsigned, which is the reading an array index uses.
-/
import proofs.«417038_j63883343560843_2_alg».proof.Pre_finite_inputs
import Idealize.ShloMosaic.Lib.ReduceAll

namespace Cert.AdapterIds

open Idealize.ShloMosaic Cert.Pre_finite_inputs

/-- The shape with no axes has exactly one index. -/
instance : Subsingleton S_.Idx := ⟨fun a b => funext fun d => d.elim0⟩

/-- A 32-bit word w with 0 ≤ w and w < 16, both read signed, has unsigned value below 16: a nonnegative signed reading is
    the unsigned one. -/
theorem toNat_lt_sixteen (w : BitVec 32) (h0 : IntOp.cmpi .sge w 0#32 = 1#1) (h1 : IntOp.cmpi .slt w 16#32 = 1#1) :
    w.toNat < 16 := by
  rw [IntOp.cmpi_sge] at h0
  rw [IntOp.cmpi_slt] at h1
  have e0 : (0#32 : BitVec 32).toInt = 0 := by decide
  have e16 : (16#32 : BitVec 32).toInt = 16 := by decide
  rw [e0] at h0
  rw [e16] at h1
  have hw := w.isLt
  rw [BitVec.toInt_eq_toNat_cond] at h0 h1
  split at h0 <;> omega

variable [Facts]

/-- Under the precondition every adapter id, read unsigned, is below 16 (at either reading of the floats: the ids are
    integers, and the two finiteness conjuncts are simply dropped). -/
theorem ids_lt {F : FTy → Type} [FloatOps F] (x : FVec F S8x2048x4096 .f32) (ids : IVec S8 32) (w : FVec F S16x64x4096 .f32)
    (h : fn (F := F) x ids w = fun _ => 1#1) (k : S8.Idx) : (ids k).toNat < 16 := by
  have e := congrFun h (fun d => d.elim0)
  dsimp only [fn] at e
  obtain ⟨-, e3⟩ := IntOp.andi_eq_one.1 e
  have ek := Host.reduce_andi_all _ _ _ _ _ e3 k
  obtain ⟨hge, hlt⟩ := IntOp.andi_eq_one.1 ek
  exact toNat_lt_sixteen (ids k) hge hlt

end Cert.AdapterIds
-- ==== Proof.IdsOkKernel.lean ====
/-
  The weight window's block index at a grid point (b, s) is the adapter id of batch element b, read as an unsigned
  word; its block has one slab of the [16, 64, 4096] table, so the window stays inside the table exactly when that id is
  below 16. The precondition says so of every id, hence the pipeline's side condition on the prefetched ids holds.
-/
import proofs.«417038_j63883343560843_2_alg».proof.Defs
import proofs.«417038_j63883343560843_2_alg».proof.Proof.Gen.Kernel.Frame
import proofs.«417038_j63883343560843_2_alg».proof.Proof.IdsInRange

noncomputable section

namespace Cert.Kernel.IdsOk

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- If every prefetched id is below 16, every block of the weight window lies inside the table: on the slab axis the block
    index is an id (and the block one slab thick), on the other two axes the block index is 0 and the block the whole
    axis. -/
theorem ok_of_ids (hids : ∀ k : S8.Idx, (tbl m 0 k).toNat < 16) : Ok m := by
  intro i
  have hslab : cc0_transform_1 k0_off1_inb numel1_S1 (tbl m) i 0 < 16 := hids _
  have hrow : cc0_transform_1 k0_off1_inb numel1_S1 (tbl m) i 1 = 0 := rfl
  have hcol : cc0_transform_1 k0_off1_inb numel1_S1 (tbl m) i 2 = 0 := rfl
  refine ⟨fun a => ?_, Or.inl rfl⟩
  match a with
  | ⟨0, _⟩ =>
    show (cc0_transform_1 k0_off1_inb numel1_S1 (tbl m) i 0 + 1) * 1 ≤ 16
    omega
  | ⟨1, _⟩ =>
    show (cc0_transform_1 k0_off1_inb numel1_S1 (tbl m) i 1 + 1) * 64 ≤ 64
    omega
  | ⟨2, _⟩ =>
    show (cc0_transform_1 k0_off1_inb numel1_S1 (tbl m) i 2 + 1) * 4096 ≤ 4096
    omega

variable [Cert.Pre_finite_inputs.Facts]

/-- The precondition, on the one device, gives every id below 16, so the side condition holds. -/
theorem ok_of_pre
    (hpre : ∀ c : Dev nD, Cert.Pre_finite_inputs.fn (F := F) (m ((c.tc : Thread nD τ).loc main_arg0))
      (m ((c.tc : Thread nD τ).loc main_arg1)) (m ((c.tc : Thread nD τ).loc main_arg2)) = fun _ => 1#1) : Ok m :=
  ok_of_ids m fun k => Cert.AdapterIds.ids_lt _ _ _ (hpre 0) k

end Cert.Kernel.IdsOk

end
-- ==== Proof.IdsOkKernelIdeal.lean ====
/-
  The weight window's block index at a grid point (b, s) is the adapter id of batch element b, read as an unsigned
  word; its block has one slab of the [16, 64, 4096] table, so the window stays inside the table exactly when that id is
  below 16. The precondition says so of every id, hence the pipeline's side condition on the prefetched ids holds.
-/
import proofs.«417038_j63883343560843_2_alg».proof.Defs
import proofs.«417038_j63883343560843_2_alg».proof.Proof.Gen.KernelIdeal.Frame
import proofs.«417038_j63883343560843_2_alg».proof.Proof.IdsInRange

noncomputable section

namespace Cert.KernelIdeal.IdsOk

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- If every prefetched id is below 16, every block of the weight window lies inside the table: on the slab axis the block
    index is an id (and the block one slab thick), on the other two axes the block index is 0 and the block the whole
    axis. -/
theorem ok_of_ids (hids : ∀ k : S8.Idx, (tbl m 0 k).toNat < 16) : Ok m := by
  intro i
  have hslab : cc0_transform_1 k0_off1_inb numel1_S1 (tbl m) i 0 < 16 := hids _
  have hrow : cc0_transform_1 k0_off1_inb numel1_S1 (tbl m) i 1 = 0 := rfl
  have hcol : cc0_transform_1 k0_off1_inb numel1_S1 (tbl m) i 2 = 0 := rfl
  refine ⟨fun a => ?_, Or.inl rfl⟩
  match a with
  | ⟨0, _⟩ =>
    show (cc0_transform_1 k0_off1_inb numel1_S1 (tbl m) i 0 + 1) * 1 ≤ 16
    omega
  | ⟨1, _⟩ =>
    show (cc0_transform_1 k0_off1_inb numel1_S1 (tbl m) i 1 + 1) * 64 ≤ 64
    omega
  | ⟨2, _⟩ =>
    show (cc0_transform_1 k0_off1_inb numel1_S1 (tbl m) i 2 + 1) * 4096 ≤ 4096
    omega

variable [Cert.Pre_finite_inputs.Facts]

/-- The precondition, on the one device, gives every id below 16, so the side condition holds. -/
theorem ok_of_pre
    (hpre : ∀ c : Dev nD, Cert.Pre_finite_inputs.fn (F := F) (m ((c.tc : Thread nD τ).loc main_arg0))
      (m ((c.tc : Thread nD τ).loc main_arg1)) (m ((c.tc : Thread nD τ).loc main_arg2)) = fun _ => 1#1) : Ok m :=
  ok_of_ids m fun k => Cert.AdapterIds.ids_lt _ _ _ (hpre 0) k

end Cert.KernelIdeal.IdsOk

end
-- ==== Proof.BlockProduct.lean ====
/-
  What one grid point computes, read at one entry over the extended reals. The body takes the [1, 1024, 4096] block
  of x and the [1, 64, 4096] slab of the weight table, drops their unit axes, multiplies the first by the transpose of
  the second into a zero accumulator (both operands are contracted along their last axis, of length 4096), and puts the
  unit axis back. So entry (0, a, o) of the stored block is  ∑_k x(0, a, k) · w(0, o, k).
-/
import proofs.«417038_j63883343560843_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen
open Idealize.ShloMosaic Idealize.ShloMosaic.ValueIdx

/-! The operand indices of the product at output entry i and contraction index q: the left operand is read at
    (row of i, q), the right one at (column of i, q). -/

theorem left_row (i : S1024x64.Idx) (q : dot_S1024x4096_S64x4096_S1024x64_1_1_0_0_n_n.contr.Idx) :
    (dot_S1024x4096_S64x4096_S1024x64_1_1_0_0_n_n.lhsIdx i q 0).val = (i 0).val := by
  unfold DotDims.lhsIdx
  rw [dif_neg (show ¬(0 : Fin S1024x4096.rank) ∈ dot_S1024x4096_S64x4096_S1024x64_1_1_0_0_n_n.lhsBatch by decide), dif_pos (show (0 : Fin S1024x4096.rank) ∈ dot_S1024x4096_S64x4096_S1024x64_1_1_0_0_n_n.lhsNonContracting by decide)]
  rfl
theorem left_contr (i : S1024x64.Idx) (q : dot_S1024x4096_S64x4096_S1024x64_1_1_0_0_n_n.contr.Idx) :
    (dot_S1024x4096_S64x4096_S1024x64_1_1_0_0_n_n.lhsIdx i q 1).val = (q ⟨0, by decide⟩).val :=
  dot_S1024x4096_S64x4096_S1024x64_1_1_0_0_n_n.lhsIdx_val_of_single rfl i q
theorem right_row (i : S1024x64.Idx) (q : dot_S1024x4096_S64x4096_S1024x64_1_1_0_0_n_n.contr.Idx) :
    (dot_S1024x4096_S64x4096_S1024x64_1_1_0_0_n_n.rhsIdx i q 0).val = (i 1).val := by
  unfold DotDims.rhsIdx
  rw [dif_neg (show ¬(0 : Fin S64x4096.rank) ∈ dot_S1024x4096_S64x4096_S1024x64_1_1_0_0_n_n.rhsBatch by decide), dif_pos (show (0 : Fin S64x4096.rank) ∈ dot_S1024x4096_S64x4096_S1024x64_1_1_0_0_n_n.rhsNonContracting by decide)]
  rfl
theorem right_contr (i : S1024x64.Idx) (q : dot_S1024x4096_S64x4096_S1024x64_1_1_0_0_n_n.contr.Idx) :
    (dot_S1024x4096_S64x4096_S1024x64_1_1_0_0_n_n.rhsIdx i q 1).val = (q ⟨0, by decide⟩).val :=
  dot_S1024x4096_S64x4096_S1024x64_1_1_0_0_n_n.rhsIdx_val_of_single rfl i q

/-- The product of a [1024, 4096] matrix by the transpose of a [64, 4096] matrix, into zero, at entry (a, o). -/
theorem product_at (l : FVec Ideal S1024x4096 .f32) (r : FVec Ideal S64x4096 .f32) (a : Fin 1024) (o : Fin 64) :
    matmul dot_S1024x4096_S64x4096_S1024x64_1_1_0_0_n_n (some .fp32) l r (constant S1024x64 .f32 0x00000000#32) (ix2 a o)
      = ∑ k : Fin 4096, l (ix2 a k) * r (ix2 o k) := by
  show FloatOps.matmul dot_S1024x4096_S64x4096_S1024x64_1_1_0_0_n_n (some .fp32) l r (constant S1024x64 .f32 0x00000000#32) (ix2 a o) = _
  rw [Ideal.matmul_constant_zero_apply, ← Equiv.sum_comp (contrEquiv1 dot_S1024x4096_S64x4096_S1024x64_1_1_0_0_n_n 4096 rfl rfl).symm]
  refine Finset.sum_congr rfl fun k _ => ?_
  have hk := contrEquiv1_symm_val dot_S1024x4096_S64x4096_S1024x64_1_1_0_0_n_n 4096 rfl rfl k
  have el : dot_S1024x4096_S64x4096_S1024x64_1_1_0_0_n_n.lhsIdx (ix2 a o) ((contrEquiv1 dot_S1024x4096_S64x4096_S1024x64_1_1_0_0_n_n 4096 rfl rfl).symm k) = ix2 a k := funext fun d => Fin.ext (by
    match d with
    | ⟨0, _⟩ => exact left_row _ _
    | ⟨1, _⟩ => exact (left_contr _ _).trans hk)
  have er : dot_S1024x4096_S64x4096_S1024x64_1_1_0_0_n_n.rhsIdx (ix2 a o) ((contrEquiv1 dot_S1024x4096_S64x4096_S1024x64_1_1_0_0_n_n 4096 rfl rfl).symm k) = ix2 o k := funext fun d => Fin.ext (by
    match d with
    | ⟨0, _⟩ => exact right_row _ _
    | ⟨1, _⟩ => exact (right_contr _ _).trans hk)
  rw [el, er]

/-- Dropping the unit axis of a [1, n, p] block: entry (a, k) of the matrix is entry (0, a, k) of the block. -/
theorem drop_unit {n p : Nat} (v : (⟨3, ![1, n, p]⟩ : Shape).Idx → EReal)
    (h : (⟨3, ![1, n, p]⟩ : Shape).ShapeCasts ⟨2, ![n, p]⟩) (a : Fin n) (k : Fin p) :
    shapeCast ⟨2, ![n, p]⟩ v h (ix2 a k) = v (ix3 (0 : Fin 1) a k) := by
  refine (shapeCast_dropUnit_apply ![n, p] v h (ix2 a k)).trans (congrArg v ?_)
  funext d
  match d with
  | ⟨0, _⟩ => rfl
  | ⟨1, _⟩ => rfl
  | ⟨2, _⟩ => rfl

/-- The stored block at entry (0, a, o). -/
theorem stored_at (x0 : Vec Ideal S1x1024x4096 .f32) (x1 : Vec Ideal S1x64x4096 .f32) (a : Fin 1024) (o : Fin 64) :
    k0_pay1 (F := Ideal) x0 x1 (ix3 (0 : Fin 1) a o)
      = ∑ k : Fin 4096, x0 (ix3 (0 : Fin 1) a k) * x1 (ix3 (0 : Fin 1) o k) := by
  unfold k0_pay1
  refine (shapeCast_addUnit_apply ![1024, 64] _ shapeCasts_S1024x64_S1x1024x64 (ix3 (0 : Fin 1) a o)).trans ?_
  have ej : (fun d : Fin 2 => (ix3 (0 : Fin 1) a o) d.succ) = ix2 a o := funext fun d => by
    match d with
    | ⟨0, _⟩ => rfl
    | ⟨1, _⟩ => rfl
  refine (congrArg _ ej).trans ?_
  refine (product_at _ _ a o).trans ?_
  refine Finset.sum_congr rfl fun k _ => ?_
  exact congrArg₂ (· * ·) (drop_unit x0 shapeCasts_S1x1024x4096_S1024x4096 a k) (drop_unit x1 shapeCasts_S1x64x4096_S64x4096 o k)

end Cert.KernelIdeal.BlockProduct

end
-- ==== Proof.StoredBlock.lean ====
/-
  What the body leaves in the output's staging buffer at a grid point: its one store writes the whole [1, 1024, 64]
  buffer, so the buffer ends holding that store's value, the block product of the two input blocks it loaded whole.
-/
import proofs.«417038_j63883343560843_2_alg».proof.Proof.Gen.KernelIdeal.Frame
import Idealize.ShloMosaic.Lib.Pipeline.Value
import Idealize.ShloMosaic.Lib.Tactic

noncomputable section

namespace Cert.KernelIdeal.StoredBlock

open Cert.KernelIdeal Cert.KernelIdeal.Gen
open Idealize.ShloMosaic Idealize.ShloMosaic.TcCoe Idealize.SL.Sem

variable {F : FTy → Type} [FloatOps F]

/-- The loads and the store all start at the buffers' origin. -/
theorem origin : (![0, 0, 0] : Fin 3 → Nat) = fun _ => 0 := funext fun a => by
  match a with
  | ⟨0, _⟩ => rfl
  | ⟨1, _⟩ => rfl
  | ⟨2, _⟩ => rfl

/-- After the body, the output's staging buffer holds the block product of the x block and the weight slab. -/
theorem out_is_product (c : Dev nD) (i : grid0.Coords) (arg3 : Memref sig .tc .vmem S1x1024x4096 .f32) (harg3 : arg3.IsWhole)
    (arg4 : Memref sig .tc .vmem S1x64x4096 .f32) (harg4 : arg4.IsWhole) (arg5 : Memref sig .tc .vmem S1x1024x64 .f32)
    (harg5 : arg5.IsWhole) (x0 : Vec F S1x1024x4096 .f32) (x1 : Vec F S1x64x4096 .f32) (xt0 : TbBuf0 (F := F) c tbM0_0) :
    out0_A_2 c i arg3 harg3 arg4 harg4 arg5 harg5 x0 x1 xt0 = k0_pay1 x0 x1 := by
  unfold out0_A_2
  rw [View.read_writes_eq_canon _ _ _ (cover0_A_2 c i arg3 harg3 arg4 harg4 arg5 harg5 x0 x1 xt0)]
  unfold kernelRun0_A
  dsimp only
  sl_unfold_words
  rw [View.canon_unit_zero origin]
  simp only [View.readAt_eq_ld, harg3.read_unread, harg4.read_unread, View.ld_unit_zero (S := S1x1024x4096) origin,
    View.ld_unit_zero (S := S1x64x4096) origin]

end Cert.KernelIdeal.StoredBlock

end
-- ==== Proof.Spec.lean ====
/-
  The result both programs compute, as one function of the three argument arrays over the extended reals:

      out[b, s, o] = ∑_{k < 4096} x[b, s, k] · weight[ids[b], o, k]

  for b < 8, s < 2048, o < 64: batch element b is multiplied by the transpose of the weight slab its adapter id names.
  The id is read as an unsigned word; so that the function is total, a word of 16 or more is sent to the last slab
  (under the stated domain every id is below 16 and this never happens).
-/
import Idealize.ShloMosaic.PureOps.Ideal
import Idealize.ShloMosaic.Lib.ValueIdx

noncomputable section

namespace Cert.MultiLora

open Idealize.ShloMosaic Idealize.ShloMosaic.ValueIdx

/-- The slab of the 16-slab table an id names. -/
def slab (v : BitVec 32) : Fin 16 := ⟨min v.toNat 15, by omega⟩

/-- An id below 16 names the slab with its own number. -/
theorem slab_of_lt (v : BitVec 32) (h : v.toNat < 16) : slab v = ⟨v.toNat, h⟩ :=
  Fin.ext (by show min v.toNat 15 = v.toNat; omega)

/-- One entry of the result. -/
def entry (x : FVec Ideal ⟨3, ![8, 2048, 4096]⟩ .f32) (ids : IVec ⟨1, ![8]⟩ 32) (w : FVec Ideal ⟨3, ![16, 64, 4096]⟩ .f32)
    (b : Fin 8) (s : Fin 2048) (o : Fin 64) : EReal :=
  ∑ k : Fin 4096, x (ix3 b s k) * w (ix3 (slab (ids (ix1 b))) o k)

/-- The whole result array. -/
def result (x : FVec Ideal ⟨3, ![8, 2048, 4096]⟩ .f32) (ids : IVec ⟨1, ![8]⟩ 32) (w : FVec Ideal ⟨3, ![16, 64, 4096]⟩ .f32) :
    FVec Ideal ⟨3, ![8, 2048, 64]⟩ .f32 :=
  fun i => entry x ids w ⟨(i 0).val, (i 0).isLt⟩ ⟨(i 1).val, (i 1).isLt⟩ ⟨(i 2).val, (i 2).isLt⟩

theorem result_apply (x : FVec Ideal ⟨3, ![8, 2048, 4096]⟩ .f32) (ids : IVec ⟨1, ![8]⟩ 32) (w : FVec Ideal ⟨3, ![16, 64, 4096]⟩ .f32)
    (b : Fin 8) (s : Fin 2048) (o : Fin 64) : result x ids w (ix3 b s o) = entry x ids w b s o := rfl

end Cert.MultiLora

end
-- ==== Proof.ResultArray.lean ====
/-
  The kernel's result array, read off its run. The grid has 8 × 2 points; the point of batch element b and sequence
  tile s (point 2·b + s in the order the grid is run) is handed rows 1024·s … 1024·s + 1023 of x[b], and the weight slab
  whose number is the adapter id of b, and writes back the [1024, 64] block  x-block · slabᵀ  at rows 1024·s … of out[b].
  Read at an entry, that block is the specified result's entry; the 16 blocks written back tile the [8, 2048, 64] array, so
  the array ends holding the specified result. All at the extended reals.
-/
import proofs.«417038_j63883343560843_2_alg».proof.Proof.IdsOkKernelIdeal
import proofs.«417038_j63883343560843_2_alg».proof.Proof.BlockProduct
import proofs.«417038_j63883343560843_2_alg».proof.Proof.StoredBlock
import proofs.«417038_j63883343560843_2_alg».proof.Proof.Spec
import Idealize.ShloMosaic.Lib.Pipeline.Value

set_option maxRecDepth 16384

noncomputable section

namespace Cert.KernelIdeal.ResultArray

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The block indices at the t-th point, decided over the 16 points: the x window and the output window sit at
    (t / 2, t % 2, 0), and the id the weight window's index map reads is entry t / 2 of the id table. -/
theorem point_coords : ∀ t : Fin grid0.N,
    cc0_transform_0 (grid0.coords t) = ![t.val / 2, t.val % 2, 0]
    ∧ cc0_transform_2 (grid0.coords t) = ![t.val / 2, t.val % 2, 0]
    ∧ k0_off1 (grid0.coords t) = ![t.val / 2] := by decide +kernel

/-- The x block at the point of batch element b and tile s: entry (0, a, k) is x[b, 1024·s + a, k]. -/
theorem x_block_at (hO : Ok m) (c : Dev nD) (t : Fin (cfgM m hO).N) (b : Fin 8) (s : Fin 2) (hb : t.val / 2 = b.val)
    (hs : t.val % 2 = s.val) (a : Fin 1024) (k : Fin 4096) :
    iblk m hO c 0 t (ix3 (0 : Fin 1) a k) = V m c main_arg0 (ix3 b (⟨1024 * s.val + a.val, by omega⟩ : Fin 2048) k) := by
  show V m c main_arg0 ((((cfgM m hO).win 0).blk t).view.emb (ix3 (0 : Fin 1) a k)) = _
  refine congrArg (V m c main_arg0) ?_
  funext d
  apply Fin.ext
  obtain ⟨e0, -, -⟩ := point_coords t
  match d with
  | ⟨0, _⟩ =>
    show cc0_transform_0 (grid0.coords t) 0 * 1 + 1 * 0 = b.val
    rw [e0]
    show t.val / 2 * 1 + 1 * 0 = b.val
    omega
  | ⟨1, _⟩ =>
    show cc0_transform_0 (grid0.coords t) 1 * 1024 + 1 * a.val = 1024 * s.val + a.val
    rw [e0]
    show t.val % 2 * 1024 + 1 * a.val = 1024 * s.val + a.val
    omega
  | ⟨2, _⟩ =>
    show cc0_transform_0 (grid0.coords t) 2 * 4096 + 1 * k.val = k.val
    rw [e0]
    show 0 * 4096 + 1 * k.val = k.val
    omega

/-- A one-element window of the id table at offset n is the table's index n. -/
theorem unit_rect_emb (off : Fin 1 → Nat) (inb : ∀ a, off a + S1.size a ≤ S8.size a)
    (x : (Rect.unit (s := S8) off S1.size inb).shape.Idx) (n : Fin 8) (h : off 0 = n.val) :
    (Rect.unit (s := S8) off S1.size inb).emb x = ix1 n := by
  funext d
  apply Fin.ext
  match d with
  | ⟨0, _⟩ =>
    show off 0 + 1 * (x 0).val = n.val
    have hx : (x 0).val < 1 := (x 0).isLt
    omega

/-- The weight window's slab index at a point of batch element b is id b, read unsigned. -/
theorem id_at_point (pf : pre0.Contents (Elt Ideal)) (t : Fin grid0.N) (b : Fin 8) (hb : t.val / 2 = b.val) :
    cc0_transform_1 k0_off1_inb numel1_S1 pf (grid0.coords t) 0 = (pf 0 (ix1 b)).toNat := by
  show (pf 0 ((Rect.unit (s := S8) (k0_off1 (grid0.coords t)) S1.size (k0_off1_inb (grid0.coords t))).emb _)).toNat = _
  refine congrArg (fun x => (pf 0 x).toNat) (unit_rect_emb _ _ _ b ?_)
  rw [(point_coords t).2.2]
  exact hb

/-- The weight block at a point of batch element b: entry (0, o, k) is weight[ids[b], o, k]. -/
theorem w_block_at (hO : Ok m) (c : Dev nD) (t : Fin (cfgM m hO).N) (b : Fin 8) (hb : t.val / 2 = b.val)
    (hlt : (tbl m 0 (ix1 b)).toNat < 16) (o : Fin 64) (k : Fin 4096) :
    iblk m hO c 1 t (ix3 (0 : Fin 1) o k) = V m c main_arg2 (ix3 (⟨(tbl m 0 (ix1 b)).toNat, hlt⟩ : Fin 16) o k) := by
  show V m c main_arg2 ((((cfgM m hO).win 1).blk t).view.emb (ix3 (0 : Fin 1) o k)) = _
  refine congrArg (V m c main_arg2) ?_
  funext d
  apply Fin.ext
  match d with
  | ⟨0, _⟩ =>
    show cc0_transform_1 k0_off1_inb numel1_S1 (tbl m) (grid0.coords t) 0 * 1 + 1 * 0 = (tbl m 0 (ix1 b)).toNat
    rw [id_at_point (tbl m) t b hb]
    omega
  | ⟨1, _⟩ =>
    show 0 * 64 + 1 * o.val = o.val
    omega
  | ⟨2, _⟩ =>
    show 0 * 4096 + 1 * k.val = k.val
    omega

/-- One grid point's stored block is the specified result on the rows of its batch element and sequence tile: if the point's
    x block is rows 1024·s … 1024·s + 1023 of batch element b and its weight block is slab ids[b], then entry (0, a, o) of
    the stored block is entry (b, 1024·s + a, o) of the result. -/
theorem point_entry (x0 : Vec Ideal S1x1024x4096 .f32) (x1 : Vec Ideal S1x64x4096 .f32)
    (X : FVec Ideal S8x2048x4096 .f32) (ids : IVec S8 32) (W : FVec Ideal S16x64x4096 .f32)
    (b : Fin 8) (s : Fin 2) (hlt : (ids (ix1 b)).toNat < 16)
    (h0 : ∀ (a : Fin 1024) (k : Fin 4096),
      x0 (ix3 (0 : Fin 1) a k) = X (ix3 b (⟨1024 * s.val + a.val, by omega⟩ : Fin 2048) k))
    (h1 : ∀ (o : Fin 64) (k : Fin 4096),
      x1 (ix3 (0 : Fin 1) o k) = W (ix3 (⟨(ids (ix1 b)).toNat, hlt⟩ : Fin 16) o k))
    (a : Fin 1024) (o : Fin 64) :
    k0_pay1 (F := Ideal) x0 x1 (ix3 (0 : Fin 1) a o)
      = Cert.MultiLora.entry X ids W b (⟨1024 * s.val + a.val, by omega⟩ : Fin 2048) o := by
  rw [BlockProduct.stored_at]
  unfold Cert.MultiLora.entry
  refine Finset.sum_congr rfl fun k _ => ?_
  rw [h0, h1, Cert.MultiLora.slab_of_lt _ hlt]

/-- The specified result of the argument arrays as the region finds them (the ids read off the one device). -/
abbrev target (c : Dev nD) : FVec Ideal S8x2048x64 .f32 :=
  Cert.MultiLora.result (V m c main_arg0) (tbl m 0) (V m c main_arg2)

/-- What point t writes back is its block of the specified result. -/
theorem flushed_eq (hids : ∀ k : S8.Idx, (tbl m 0 k).toNat < 16) (hO : Ok m) (c : Dev nD) (t : Fin (cfgM m hO).N) :
    (dats m hO 0 c).flushed 2 t = (((cfgM m hO).win 2).blk t).view.read (Elt Ideal) (target m c) := by
  show ((cfgM m hO).win 2).cut (grid0.coords t) ((dats m hO 0 c).after 2 t) = _
  rw [after0_2]
  unfold outsAt0
  have hN : (cfgM m hO).N = 16 := N_0
  have ht : t.val < 16 := hN ▸ t.isLt
  obtain ⟨-, e2, -⟩ := point_coords t
  funext j
  have hj0 : (j (0 : Fin 3)).val < 1 := (j (0 : Fin 3)).isLt
  have hj1 : (j (1 : Fin 3)).val < 1024 := (j (1 : Fin 3)).isLt
  have hj2 : (j (2 : Fin 3)).val < 64 := (j (2 : Fin 3)).isLt
  have ej : ((cfgM m hO).win 2).xinj (grid0.coords t) j = ix3 (0 : Fin 1) (⟨(j (1 : Fin 3)).val, hj1⟩ : Fin 1024) (⟨(j (2 : Fin 3)).val, hj2⟩ : Fin 64) :=
    funext fun d => Fin.ext (by
      match d with
      | ⟨0, _⟩ => show (j (0 : Fin 3)).val = 0; omega
      | ⟨1, _⟩ => rfl
      | ⟨2, _⟩ => rfl)
  have eemb : (((cfgM m hO).win 2).blk t).view.emb j
      = ix3 (⟨t.val / 2, by omega⟩ : Fin 8) (⟨1024 * (t.val % 2) + (j (1 : Fin 3)).val, by omega⟩ : Fin 2048) (⟨(j (2 : Fin 3)).val, hj2⟩ : Fin 64) :=
    funext fun d => Fin.ext (by
      match d with
      | ⟨0, _⟩ =>
        show cc0_transform_2 (grid0.coords t) 0 * 1 + 1 * (j (0 : Fin 3)).val = t.val / 2
        rw [e2]
        show t.val / 2 * 1 + 1 * (j (0 : Fin 3)).val = t.val / 2
        omega
      | ⟨1, _⟩ =>
        show cc0_transform_2 (grid0.coords t) 1 * 1024 + 1 * (j (1 : Fin 3)).val = 1024 * (t.val % 2) + (j (1 : Fin 3)).val
        rw [e2]
        show t.val % 2 * 1024 + 1 * (j (1 : Fin 3)).val = 1024 * (t.val % 2) + (j (1 : Fin 3)).val
        omega
      | ⟨2, _⟩ =>
        show cc0_transform_2 (grid0.coords t) 2 * 64 + 1 * (j (2 : Fin 3)).val = (j (2 : Fin 3)).val
        rw [e2]
        show 0 * 64 + 1 * (j (2 : Fin 3)).val = (j (2 : Fin 3)).val
        omega)
  show out0_A_2 c (grid0.coords t) (ms0_0 m hO t) (hs0_0 m hO t) (ms0_1 m hO t) (hs0_1 m hO t) (ms0_2 m hO t) (hs0_2 m hO t)
      (iblk m hO c 0 t) (iblk m hO c 1 t) (tbl m 0) (((cfgM m hO).win 2).xinj (grid0.coords t) j)
    = target m c ((((cfgM m hO).win 2).blk t).view.emb j)
  refine (congrFun (StoredBlock.out_is_product (F := Ideal) c (grid0.coords t) (ms0_0 m hO t) (hs0_0 m hO t) (ms0_1 m hO t)
    (hs0_1 m hO t) (ms0_2 m hO t) (hs0_2 m hO t) (iblk m hO c 0 t) (iblk m hO c 1 t) (tbl m 0))
    (((cfgM m hO).win 2).xinj (grid0.coords t) j)).trans ?_
  refine (congrArg (k0_pay1 (F := Ideal) (iblk m hO c 0 t) (iblk m hO c 1 t)) ej).trans ?_
  refine Eq.trans ?_ (congrArg (target m c) eemb).symm
  exact point_entry (iblk m hO c 0 t) (iblk m hO c 1 t) (V m c main_arg0) (tbl m 0) (V m c main_arg2)
    (⟨t.val / 2, by omega⟩ : Fin 8) (⟨t.val % 2, by omega⟩ : Fin 2) (hids _)
    (fun a k => x_block_at m hO c t (⟨t.val / 2, by omega⟩ : Fin 8) (⟨t.val % 2, by omega⟩ : Fin 2) rfl rfl a k)
    (fun o k => w_block_at m hO c t (⟨t.val / 2, by omega⟩ : Fin 8) rfl (hids _) o k)
    (⟨(j (1 : Fin 3)).val, hj1⟩ : Fin 1024) (⟨(j (2 : Fin 3)).val, hj2⟩ : Fin 64)

/-- An entry of the [8, 2048, 64] array lies in the [1, 1024, 64] block at given offsets exactly when each coordinate is in the
    block's range on its axis. -/
theorem mem_block (off : Fin 3 → Nat) (inb : ∀ a, off a + S1x1024x64.size a ≤ S8x2048x64.size a) (i : S8x2048x64.Idx)
    (h : ∀ a, off a ≤ (i a).val ∧ (i a).val < off a + S1x1024x64.size a) :
    i ∈ ((View.whole main_v0).slice (Rect.unit (s := S8x2048x64) off S1x1024x64.size inb)).set := by
  rw [View.set_slice_whole, Rect.mem_set_unit]
  exact h

/-- Every entry (b, r, o) of the result array lies in the block written back at the point of batch element b and sequence
    tile r / 1024, which is point 2·b + r / 1024 in the order the grid is run. -/
theorem covered (hO : Ok m) (i : S8x2048x64.Idx) :
    ∃ t : Fin (cfgM m hO).N, ((cfgM m hO).win 2).flush t = true ∧ i ∈ (((cfgM m hO).win 2).blk t).view.set := by
  have hN : (cfgM m hO).N = 16 := N_0
  have h0 : (i (0 : Fin 3)).val < 8 := (i (0 : Fin 3)).isLt
  have h1 : (i (1 : Fin 3)).val < 2048 := (i (1 : Fin 3)).isLt
  have h2 : (i (2 : Fin 3)).val < 64 := (i (2 : Fin 3)).isLt
  have ht : 2 * (i (0 : Fin 3)).val + (i (1 : Fin 3)).val / 1024 < (cfgM m hO).N := by rw [hN]; omega
  obtain ⟨-, e2, -⟩ := point_coords ⟨2 * (i (0 : Fin 3)).val + (i (1 : Fin 3)).val / 1024, ht⟩
  refine ⟨⟨2 * (i (0 : Fin 3)).val + (i (1 : Fin 3)).val / 1024, ht⟩, flush0_2 (adm m hO) _, ?_⟩
  refine mem_block (fun a => cc0_transform_2 (grid0.coords ⟨2 * (i (0 : Fin 3)).val + (i (1 : Fin 3)).val / 1024, ht⟩) a * S1x1024x64.size a) _ i ?_
  intro a
  match a with
  | ⟨0, _⟩ =>
    show cc0_transform_2 (grid0.coords ⟨2 * (i (0 : Fin 3)).val + (i (1 : Fin 3)).val / 1024, ht⟩) 0 * 1 ≤ (i (0 : Fin 3)).val
      ∧ (i (0 : Fin 3)).val < cc0_transform_2 (grid0.coords ⟨2 * (i (0 : Fin 3)).val + (i (1 : Fin 3)).val / 1024, ht⟩) 0 * 1 + 1
    rw [e2]
    show (2 * (i (0 : Fin 3)).val + (i (1 : Fin 3)).val / 1024) / 2 * 1 ≤ (i (0 : Fin 3)).val
      ∧ (i (0 : Fin 3)).val < (2 * (i (0 : Fin 3)).val + (i (1 : Fin 3)).val / 1024) / 2 * 1 + 1
    omega
  | ⟨1, _⟩ =>
    show cc0_transform_2 (grid0.coords ⟨2 * (i (0 : Fin 3)).val + (i (1 : Fin 3)).val / 1024, ht⟩) 1 * 1024 ≤ (i (1 : Fin 3)).val
      ∧ (i (1 : Fin 3)).val < cc0_transform_2 (grid0.coords ⟨2 * (i (0 : Fin 3)).val + (i (1 : Fin 3)).val / 1024, ht⟩) 1 * 1024 + 1024
    rw [e2]
    show (2 * (i (0 : Fin 3)).val + (i (1 : Fin 3)).val / 1024) % 2 * 1024 ≤ (i (1 : Fin 3)).val
      ∧ (i (1 : Fin 3)).val < (2 * (i (0 : Fin 3)).val + (i (1 : Fin 3)).val / 1024) % 2 * 1024 + 1024
    omega
  | ⟨2, _⟩ =>
    show cc0_transform_2 (grid0.coords ⟨2 * (i (0 : Fin 3)).val + (i (1 : Fin 3)).val / 1024, ht⟩) 2 * 64 ≤ (i (2 : Fin 3)).val
      ∧ (i (2 : Fin 3)).val < cc0_transform_2 (grid0.coords ⟨2 * (i (0 : Fin 3)).val + (i (1 : Fin 3)).val / 1024, ht⟩) 2 * 64 + 64
    rw [e2]
    show 0 * 64 ≤ (i (2 : Fin 3)).val ∧ (i (2 : Fin 3)).val < 0 * 64 + 64
    omega

/-- So the result array ends holding the specified result. -/
theorem final_array (hids : ∀ k : S8.Idx, (tbl m 0 k).toNat < 16) (hO : Ok m) (c : Dev nD) :
    (dats m hO 0 c).arrAt 2 (cfgM m hO).N = target m c :=
  (dats m hO 0 c).arrAt_eq_of_cover 2 (target m c) (fun t _ => flushed_eq m hids hO c t) (covered m hO)

/-- The run, read: the result array at the specified result of the arguments, the arguments unchanged. -/
theorem run (hids : ∀ k : S8.Idx, (tbl m 0 k).toNat < 16) (hO : Ok m) :
    θ_run defs (onTc (τ := τ) (main (F := Ideal))) ⟨m, fun _ => 0, ρ⟩ fun r => ∀ c : Dev nD,
      r.2.mem ((c.tc : Thread nD τ).loc main_v0)
        = Cert.MultiLora.result (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run_main (F := Ideal) m ρ hO)
  obtain rfl : c = 0 := Subsingleton.elim _ _
  exact ⟨((h 0).1 2).trans (final_array m hids hO 0),
    ((h 0).1 0).trans (((dats m hO 0 0).arrAt_in 0 rfl _).trans ((A_eq m hO 0 0).trans (V_main_arg0 m 0))),
    ((h 0).2 main_arg1 (by decide : main_arg1 ∈ Pipeline.restRefs sig spec0)).trans (V_main_arg1 m 0),
    ((h 0).1 1).trans (((dats m hO 0 0).arrAt_in 1 rfl _).trans ((A_eq m hO 0 1).trans (V_main_arg2 m 0)))⟩

end Cert.KernelIdeal.ResultArray

end
-- ==== Proof.LibGatherRows3.lean ====
/-
  A gather of whole SLABS of a rank-3 table by an [n × 1] table of start indices (what `table[idx]` of a rank-3
  table prints as), read at one element: slab p, row a, column q of the result is the table at slab p's start index,
  read as a signed integer and brought inside the table, at row a and column q.
-/
import Idealize.ShloMosaic.PureOps.Ideal
import Idealize.ShloMosaic.Lib.ValueIdx

noncomputable section

open Idealize.ShloMosaic Idealize.ShloMosaic.ValueIdx

namespace Cert.LibGatherRows3

/-- Every entry of a one-element list is that element. -/
private theorem getElem_of_eq_singleton {β : Type} (l : List β) (b : β) (hl : l = [b]) (k : Nat) (hk : k < l.length) :
    l[k] = b := by
  subst hl
  have h0 : k = 0 := by simpa using hk
  subst h0
  rfl

/-- The entry of a two-element list at position k is the first element when k = 0 and the second otherwise. -/
private theorem getElem_of_eq_pair {β : Type} (l : List β) (b0 b1 : β) (hl : l = [b0, b1]) (k : Nat)
    (hk : k < l.length) : l[k] = if k = 0 then b0 else b1 := by
  subst hl
  match k, hk with
  | 0, _ => rfl
  | 1, _ => rfl
  | k + 2, hk => exact absurd hk (by simp)

/-- The result's one batch axis is axis 0: axes 1 and 2 are the offset axes. -/
private theorem batchDims_rows3 {N A C n : Nat} (d : GatherDims ⟨3, ![N, A, C]⟩ ⟨2, ![n, 1]⟩ ⟨3, ![n, A, C]⟩)
    (hoff : d.offsetDims = [1, 2]) : d.batchDims = [0] := by
  show Shape.kept _ d.offsetDims = [0]
  rw [hoff]
  show (List.finRange 3).filter (fun a : Fin 3 => a ∉ ([1, 2] : List (Fin 3))) = [0]
  decide

/-- The operand's axes that are neither collapsed nor batching are axes 1 and 2, in that order. -/
private theorem sKept_rows3 {N A C n : Nat} (d : GatherDims ⟨3, ![N, A, C]⟩ ⟨2, ![n, 1]⟩ ⟨3, ![n, A, C]⟩)
    (hcoll : d.collapsedSliceDims = [0]) (hob : d.operandBatchingDims = []) : d.sKept = [1, 2] := by
  show Shape.kept _ (d.collapsedSliceDims ++ d.operandBatchingDims) = [1, 2]
  rw [hcoll, hob, List.append_nil]
  show (List.finRange 3).filter (fun a : Fin 3 => a ∉ ([0] : List (Fin 3))) = ([1, 2] : List (Fin 3))
  decide

/-- The start-index table is read at the result slab's row, column 0. -/
private theorem siIdx_rows3 {N A C n : Nat} (d : GatherDims ⟨3, ![N, A, C]⟩ ⟨2, ![n, 1]⟩ ⟨3, ![n, A, C]⟩)
    (hoff : d.offsetDims = [1, 2]) (hsim : d.startIndexMap = [0]) (hivd : d.indexVectorDim = 1)
    (j : (⟨3, ![n, A, C]⟩ : Shape).Idx) (c : Fin d.startIndexMap.length) :
    d.siIdx j c = ix2 (j 0) (0 : Fin 1) := by
  funext b
  match b with
  | ⟨0, _⟩ =>
    unfold GatherDims.siIdx
    rw [dif_neg (by rw [hivd]; simp)]
    unfold GatherDims.siCoord
    apply Fin.ext
    simp only [Fin.val_cast]
    have e : ∀ (k : Nat) (hk : k < d.batchDims.length), d.batchDims[k] = 0 :=
      fun k hk => getElem_of_eq_singleton _ _ (batchDims_rows3 d hoff) k hk
    rw [e]
  | ⟨1, _⟩ =>
    unfold GatherDims.siIdx
    rw [dif_pos (by rw [hivd])]
    apply Fin.ext
    have hc : c.val < d.startIndexMap.length := c.isLt
    have hl : d.startIndexMap.length = 1 := by rw [hsim]; rfl
    show c.val = 0
    omega

/-- On the slab axis the slice starts at the start index, read signed and brought inside the table. -/
private theorem start_rows3_0 {N A C n w : Nat} (d : GatherDims ⟨3, ![N, A, C]⟩ ⟨2, ![n, 1]⟩ ⟨3, ![n, A, C]⟩)
    (hoff : d.offsetDims = [1, 2]) (hcoll : d.collapsedSliceDims = [0]) (hsim : d.startIndexMap = [0])
    (hivd : d.indexVectorDim = 1) (idx : IVec ⟨2, ![n, 1]⟩ w) (j : (⟨3, ![n, A, C]⟩ : Shape).Idx) :
    d.start j idx 0 = min (idx (ix2 (j 0) (0 : Fin 1))).toInt.toNat (N - 1) := by
  have hm : (0 : Fin 3) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, siIdx_rows3 d hoff hsim hivd, hsl]
  rfl

/-- On the row and column axes, which no start index addresses, the slice starts at 0. -/
private theorem start_rows3_ne {N A C n w : Nat} (d : GatherDims ⟨3, ![N, A, C]⟩ ⟨2, ![n, 1]⟩ ⟨3, ![n, A, C]⟩)
    (hsim : d.startIndexMap = [0]) (idx : IVec ⟨2, ![n, 1]⟩ w) (j : (⟨3, ![n, A, C]⟩ : Shape).Idx)
    (b : Fin 3) (hb : b ≠ 0) : d.start j idx b = 0 := by
  unfold GatherDims.start
  rw [dif_neg]
  rw [hsim]
  exact fun h => hb (List.mem_singleton.1 h)

/-- The collapsed slab axis has no offset coordinate. -/
private theorem offCoord_rows3_0 {N A C n : Nat} (d : GatherDims ⟨3, ![N, A, C]⟩ ⟨2, ![n, 1]⟩ ⟨3, ![n, A, C]⟩)
    (hcoll : d.collapsedSliceDims = [0]) (j : (⟨3, ![n, A, C]⟩ : Shape).Idx) :
    d.offCoord j 0 = 0 := by
  apply d.offCoord_eq_zero
  intro h
  exact ((d.mem_sKept 0).1 h).1 (by rw [hcoll]; exact List.mem_singleton.mpr rfl)

/-- The row axis's offset coordinate is the result's row. -/
private theorem offCoord_rows3_1 {N A C n : Nat} (d : GatherDims ⟨3, ![N, A, C]⟩ ⟨2, ![n, 1]⟩ ⟨3, ![n, A, C]⟩)
    (hoff : d.offsetDims = [1, 2]) (hcoll : d.collapsedSliceDims = [0]) (hob : d.operandBatchingDims = [])
    (j : (⟨3, ![n, A, C]⟩ : Shape).Idx) :
    d.offCoord j 1 = (j 1).val := by
  have hk : (1 : Fin 3) ∈ d.sKept := by
    rw [sKept_rows3 d hcoll hob]
    show (1 : Fin 3) ∈ ([1, 2] : List (Fin 3))
    decide
  have hp : d.sKept.idxOf (1 : Fin 3) = 0 := by
    rw [sKept_rows3 d hcoll hob]
    show List.idxOf (1 : Fin 3) ([1, 2] : List (Fin 3)) = 0
    decide
  unfold GatherDims.offCoord
  rw [dif_pos hk, getElem_of_eq_pair _ _ _ hoff, if_pos hp]

/-- The column axis's offset coordinate is the result's column. -/
private theorem offCoord_rows3_2 {N A C n : Nat} (d : GatherDims ⟨3, ![N, A, C]⟩ ⟨2, ![n, 1]⟩ ⟨3, ![n, A, C]⟩)
    (hoff : d.offsetDims = [1, 2]) (hcoll : d.collapsedSliceDims = [0]) (hob : d.operandBatchingDims = [])
    (j : (⟨3, ![n, A, C]⟩ : Shape).Idx) :
    d.offCoord j 2 = (j 2).val := by
  have hk : (2 : Fin 3) ∈ d.sKept := by
    rw [sKept_rows3 d hcoll hob]
    show (2 : Fin 3) ∈ ([1, 2] : List (Fin 3))
    decide
  have hp : ¬ d.sKept.idxOf (2 : Fin 3) = 0 := by
    rw [sKept_rows3 d hcoll hob]
    show ¬ List.idxOf (2 : Fin 3) ([1, 2] : List (Fin 3)) = 0
    decide
  unfold GatherDims.offCoord
  rw [dif_pos hk, getElem_of_eq_pair _ _ _ hoff, if_neg hp]

/-- The slab gather read at (p, a, q). -/
theorem gather_rows3 {α : Type} {N A C n w : Nat} (d : GatherDims ⟨3, ![N, A, C]⟩ ⟨2, ![n, 1]⟩ ⟨3, ![n, A, C]⟩)
    (hoff : d.offsetDims = [1, 2]) (hcoll : d.collapsedSliceDims = [0]) (hob : d.operandBatchingDims = [])
    (hsb : d.startIndicesBatchingDims = []) (hsim : d.startIndexMap = [0]) (hivd : d.indexVectorDim = 1)
    (hss : d.sliceSizes = ![1, A, C])
    (x : (⟨3, ![N, A, C]⟩ : Shape).Idx → α) (idx : IVec ⟨2, ![n, 1]⟩ w) (p : Fin n) (a : Fin A) (q : Fin C) (hN : 0 < N) :
    Host.gather d x idx (ix3 p a q)
      = x (ix3 (⟨min (idx (ix2 p (0 : Fin 1))).toInt.toNat (N - 1), by omega⟩ : Fin N) a q) := by
  unfold Host.gather
  congr 1
  funext b
  have hb : ∀ b : Fin 3, b ∉ d.operandBatchingDims := fun b => by rw [hob]; exact List.not_mem_nil
  match b with
  | ⟨0, _⟩ =>
    apply Fin.ext
    show d.start (ix3 p a q) idx 0 + d.batchCoord (ix3 p a q) 0 + d.offCoord (ix3 p a q) 0 = _
    rw [start_rows3_0 d hoff hcoll hsim hivd, d.batchCoord_eq_zero _ _ (hb 0), offCoord_rows3_0 d hcoll]
    rfl
  | ⟨1, _⟩ =>
    apply Fin.ext
    show d.start (ix3 p a q) idx 1 + d.batchCoord (ix3 p a q) 1 + d.offCoord (ix3 p a q) 1 = _
    rw [start_rows3_ne d hsim idx _ 1 (by decide), d.batchCoord_eq_zero _ _ (hb 1), offCoord_rows3_1 d hoff hcoll hob]
    show 0 + 0 + a.val = a.val
    omega
  | ⟨2, _⟩ =>
    apply Fin.ext
    show d.start (ix3 p a q) idx 2 + d.batchCoord (ix3 p a q) 2 + d.offCoord (ix3 p a q) 2 = _
    rw [start_rows3_ne d hsim idx _ 2 (by decide), d.batchCoord_eq_zero _ _ (hb 2), offCoord_rows3_2 d hoff hcoll hob]
    show 0 + 0 + q.val = q.val
    omega

end Cert.LibGatherRows3

end
-- ==== Proof.RefValue.lean ====
/-
  The reference read at one entry. It first normalises the ids (a negative id has 16 added), then gathers one
  [64, 4096] slab of the weight table per batch element (the start index read signed and brought inside the table), then
  multiplies, per batch element, the [2048, 4096] matrix of x by the transpose of the gathered slab. When every id is in
  [0, 16) the normalisation and the clamp do nothing, the slab gathered for batch element b is slab ids[b], and entry
  (b, s, o) of the result is  ∑_k x[b, s, k] · weight[ids[b], o, k].
-/
import proofs.«417038_j63883343560843_2_alg».proof.Proof.Gen.ReferenceIdeal.Read
import proofs.«417038_j63883343560843_2_alg».proof.Proof.LibGatherRows3
import proofs.«417038_j63883343560843_2_alg».proof.Proof.Spec
import Idealize.ShloMosaic.Lib.Affine

noncomputable section

namespace Cert.ReferenceIdeal.RefValue

open Cert.ReferenceIdeal Cert.ReferenceIdeal.Gen Cert.ReferenceIdeal.Read
open Idealize.ShloMosaic Idealize.ShloMosaic.ValueIdx

/-- A word below 16 is nonnegative read signed, and its signed reading is its unsigned one. -/
theorem small_word (v : BitVec 32) (h : v.toNat < 16) : ¬ v.toInt < 0 ∧ v.toInt.toNat = v.toNat := by
  rw [BitVec.toInt_eq_toNat_cond, if_pos (by omega)]
  constructor
  · omega
  · exact Int.toNat_natCast _

/-- The normalised id of batch element p is the id itself when the id is below 16. -/
theorem normalised_id (ids : IVec S8 32) (p : Fin 8) (h : (ids (ix1 p)).toNat < 16) :
    val_main_v5 (F := Ideal) ids (ix2 p (0 : Fin 1)) = ids (ix1 p) := by
  have ep : idx_main_v5 (ix2 p (0 : Fin 1)) = ix1 p := funext fun a => by
    match a with
    | ⟨0, _⟩ => rfl
  rw [val_main_v5_apply, ep, val_main_v4_apply, val_main_v1_apply, val_main_v0_apply, val_main_c_apply]
  have hc : IntOp.cmpi .slt (ids (ix1 p)) 0#32 = 0#1 := eq_zero_of_ne_one fun h1 => by
    rw [IntOp.cmpi_slt] at h1
    have e0 : (0#32 : BitVec 32).toInt = 0 := by decide
    rw [e0] at h1
    exact (small_word _ h).1 h1
  rw [hc, select_zero]

/-- The gathered slab of batch element p, at row o and column k, is slab ids[p] of the table there. -/
theorem gathered_at (ids : IVec S8 32) (w : FVec Ideal S16x64x4096 .f32) (p : Fin 8) (o : Fin 64) (k : Fin 4096)
    (h : (ids (ix1 p)).toNat < 16) :
    val_main_v6 (F := Ideal) ids w (ix3 p o k) = w (ix3 (Cert.MultiLora.slab (ids (ix1 p))) o k) := by
  unfold val_main_v6
  refine (Cert.LibGatherRows3.gather_rows3 gather_S16x64x4096_S8x1_S8x64x4096_12_0_n_n_0_1_1644096 rfl rfl rfl rfl rfl rfl rfl w
    (val_main_v5 (F := Ideal) ids) p o k (by decide)).trans ?_
  refine congrArg w ?_
  refine congrArg (fun r : Fin 16 => ix3 r o k) (Fin.ext ?_)
  show min (val_main_v5 (F := Ideal) ids (ix2 p (0 : Fin 1))).toInt.toNat (16 - 1) = min (ids (ix1 p)).toNat 15
  rw [normalised_id ids p h, (small_word _ h).2]

/-- The reference's result at entry (b, s, o), ids below 16. -/
theorem reference_entry (x : FVec Ideal S8x2048x4096 .f32) (ids : IVec S8 32) (w : FVec Ideal S16x64x4096 .f32)
    (hids : ∀ k : S8.Idx, (ids k).toNat < 16) (b : Fin 8) (s : Fin 2048) (o : Fin 64) :
    val_main_v7 (F := Ideal) x ids w (ix3 b s o) = Cert.MultiLora.entry x ids w b s o := by
  rw [val_main_v7_apply]
  unfold Cert.MultiLora.entry
  refine Finset.sum_congr rfl fun k _ => ?_
  have el : lidx_main_v7 (ix3 b s o) k = ix3 b s k := funext fun a => by
    match a with
    | ⟨0, _⟩ => rfl
    | ⟨1, _⟩ => rfl
    | ⟨2, _⟩ => rfl
  have er : ridx_main_v7 (ix3 b s o) k = ix3 b o k := funext fun a => by
    match a with
    | ⟨0, _⟩ => rfl
    | ⟨1, _⟩ => rfl
    | ⟨2, _⟩ => rfl
  rw [el, er, gathered_at ids w b o k (hids _)]

/-- So the reference's result array is the specified one. -/
theorem reference_is_result (x : FVec Ideal S8x2048x4096 .f32) (ids : IVec S8 32) (w : FVec Ideal S16x64x4096 .f32)
    (hids : ∀ k : S8.Idx, (ids k).toNat < 16) :
    val_main_v7 (F := Ideal) x ids w = Cert.MultiLora.result x ids w := by
  funext i
  obtain ⟨b, s, o, rfl⟩ : ∃ (b : Fin 8) (s : Fin 2048) (o : Fin 64), i = ix3 b s o := ⟨i 0, i 1, i 2, eq_ix3 i⟩
  exact reference_entry x ids w hids b s o

end Cert.ReferenceIdeal.RefValue

end
-- ==== Proof.lean ====
/-
  Per-sample adapter matmul: out[b, s, o] = ∑_k x[b, s, k] · weight[ids[b], o, k] over f32[8, 2048, 4096], i32[8],
  f32[16, 64, 4096]. The kernel selects the weight slab of batch element b through its block index map (the prefetched id is
  the slab's block index) and multiplies a 1024-row tile of x[b] by the slab's transpose; the reference gathers the slabs
  and contracts per batch element. The stated domain is finite floats and 0 ≤ ids < 16: outside it the reference indexes
  the table out of range, and the kernel's weight block would lie outside the table.

  Under that domain both programs run and leave their arguments unchanged (the kernel because every weight block is then
  inside the table), and over the extended reals both result arrays are the one function of the arguments written in
  Spec.lean: the kernel's by reading each grid point's stored block at an entry and tiling the array with the 16 blocks,
  the reference's by reading the gather and the contraction at an entry. No algebraic law is needed beyond that: both
  sides are the same sum over k of the same products.
-/
import proofs.«417038_j63883343560843_2_alg».proof.Defs
import proofs.«417038_j63883343560843_2_alg».proof.Proof.Gen.Kernel
import proofs.«417038_j63883343560843_2_alg».proof.Proof.Gen.Kernel.Frame
import proofs.«417038_j63883343560843_2_alg».proof.Proof.Gen.KernelIdeal
import proofs.«417038_j63883343560843_2_alg».proof.Proof.Gen.KernelIdeal.Frame
import proofs.«417038_j63883343560843_2_alg».proof.Proof.Gen.ReferenceIdeal
import proofs.«417038_j63883343560843_2_alg».proof.Proof.Gen.Pre_finite_inputs
import proofs.«417038_j63883343560843_2_alg».proof.Proof.Gen.ReferenceIdeal.Run
import proofs.«417038_j63883343560843_2_alg».proof.Proof.Gen.ReferenceIdeal.Read
import proofs.«417038_j63883343560843_2_alg».proof.Proof.IdsInRange
import proofs.«417038_j63883343560843_2_alg».proof.Proof.IdsOkKernel
import proofs.«417038_j63883343560843_2_alg».proof.Proof.IdsOkKernelIdeal
import proofs.«417038_j63883343560843_2_alg».proof.Proof.ResultArray
import proofs.«417038_j63883343560843_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: every weight block is inside the table because every id is below 16. -/
theorem frame_kernel : Cert.frame_Kernel := fun m ρ h =>
  Cert.Kernel.Gen.frame m ρ (Cert.Kernel.IdsOk.ok_of_pre m h)

/-- The same of the kernel read over the extended reals. -/
theorem frame_kernel_ideal : Cert.frame_KernelIdeal := fun m ρ h =>
  Cert.KernelIdeal.Gen.frame m ρ (Cert.KernelIdeal.IdsOk.ok_of_pre m h)

/-- The reference is a straight line of host operations: it runs, and its run keeps the arguments. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the specified result of the shared arguments. -/
theorem algebraic : Cert.algebraic_KernelIdeal_ReferenceIdeal := by
  intro m ρ m' ρ' hpre hagree
  have hids : ∀ k : Cert.KernelIdeal.S8.Idx, (Cert.KernelIdeal.Gen.tbl m 0 k).toNat < 16 :=
    fun k => Cert.AdapterIds.ids_lt _ _ _ (hpre 0) k
  refine ⟨fun c => Cert.MultiLora.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ResultArray.run m ρ hids (Cert.KernelIdeal.IdsOk.ok_of_ids m hids), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, (hagree c).1, (hagree c).2.1, (hagree c).2.2]
  exact Cert.ReferenceIdeal.RefValue.reference_is_result _ _ _ (fun k => Cert.AdapterIds.ids_lt _ _ _ (hpre c) k)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
